-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x112x112x256 : Shape := ⟨4, ![64, 112, 112, 256]⟩
abbrev S_ : Shape := ⟨0, ![]⟩

class Facts : Prop where
  bcast_S_S64x112x112x256 : S_.BroadcastsInDim S64x112x112x256 (![] : Fin 0 → Fin S64x112x112x256.rank)
  reducesTo_S64x112x112x256_S_d0_1_2_3 : S64x112x112x256.ReducesTo [0, 1, 2, 3] S_
  h_S_ : 0 < S_.numel

variable [Facts]

def fn {F : FTy → Type} [FloatOps F] (main_arg0 : FVec F S64x112x112x256 .f32) : IVec S_ 1 :=
  let main_v0 : FVec F S64x112x112x256 .f32 := Host.absf main_arg0
  let main_cst : FVec F S_ .f32 := constant S_ .f32 0x7F800000#32
  let main_v1 : FVec F S64x112x112x256 .f32 := broadcastInDim S64x112x112x256 ![] bcast_S_S64x112x112x256 main_cst
  let main_v2 : IVec S64x112x112x256 1 := cmpf .olt main_v0 main_v1
  let main_c : IVec S_ 1 := constantI S_ 1 1#1
  let main_v3 : IVec S_ 1 := (fun x v => Host.reduce IntOp.andi x v reducesTo_S64x112x112x256_S_d0_1_2_3 h_S_) main_v2 main_c
  main_v3
-- ==== Kernel.lean ====
abbrev S64x112x112x256 : Shape := ⟨4, ![64, 112, 112, 256]⟩
abbrev S64x256 : Shape := ⟨2, ![64, 256]⟩
abbrev S8x16x112x256 : Shape := ⟨4, ![8, 16, 112, 256]⟩
abbrev S8x256 : Shape := ⟨2, ![8, 256]⟩
abbrev S8x16x256 : Shape := ⟨3, ![8, 16, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x112x112x256, .f32⟩
  | .hbm, ⟨1, _⟩ => ⟨S64x256, .f32⟩
  | .local _ .vmem, ⟨0, _⟩ => ⟨S8x16x112x256, .f32⟩
  | .local _ .vmem, ⟨1, _⟩ => ⟨S8x16x112x256, .f32⟩
  | .local _ .vmem, ⟨2, _⟩ => ⟨S8x256, .f32⟩
  | .local _ .vmem, ⟨3, _⟩ => ⟨S8x256, .f32⟩
  | _, _ => ⟨S64x112x112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x256_S8x256_0_0 : ∀ a, (![0, 0] : Fin 2 → Nat) a + S8x256.size a ≤ S8x256.size a
  h_S8x256 : 0 < S8x256.numel
  inb_S8x16x112x256_S8x16x112x256_0_0_0_0 : ∀ a, (![0, 0, 0, 0] : Fin 4 → Nat) a + S8x16x112x256.size a ≤ S8x16x112x256.size a
  h_S8x16x112x256 : 0 < S8x16x112x256.numel
  reduces_S8x16x112x256_S8x16x256 : S8x16x112x256.Reduces [2] S8x16x256
  reduces_S8x16x256_S8x256 : S8x16x256.Reduces [1] S8x256
  shapeCasts_S8x256_S8x256 : S8x256.ShapeCasts S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x112x256.size a ≤ S64x112x112x256.size a
  hwx0_0 : ∀ i : grid0.Coords, EltTy.bits .f32 = 32 ∨ (Rect.block (s := S64x112x112x256) S8x16x112x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S64x256.size a
  hwx0_1 : ∀ i : grid0.Coords, EltTy.bits .f32 = 32 ∨ (Rect.block (s := S64x256) S8x256.size (cc0_transform_1 i) (hinb0_1 i)).WholeWords (EltTy.packing .f32)

variable [Facts₀]

abbrev win0_0 : Pipeline.Window sig grid0 :=
  Pipeline.Window.ofSpec (Memref.whole main_arg0) S8x16x112x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x112x112x256 : Shape := ⟨4, ![64, 112, 112, 256]⟩
abbrev S_ : Shape := ⟨0, ![]⟩
abbrev S64x256 : Shape := ⟨2, ![64, 256]⟩

abbrev nBuf : Space → Nat
  | .hbm => 3
  | .vmem => 0
  | .smem => 0
  | _ => 0

abbrev bufTy : (tb : Table) → Fin (tcTables nBuf tb) → BufTy
  | .hbm, ⟨0, _⟩ => ⟨S64x112x112x256, .f32⟩
  | .hbm, ⟨1, _⟩ => ⟨S_, .f32⟩
  | .hbm, ⟨2, _⟩ => ⟨S64x256, .f32⟩
  | _, _ => ⟨S64x112x112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S64x112x112x256_S64x256_d1_2 : S64x112x112x256.ReducesTo [1, 2] S64x256
  h_S_ : 0 < S_.numel

variable [Facts₀]

class Facts : Prop extends Facts₀ where

variable [Facts]
-- ==== Proof.PoolBlock.lean ====
/-
  Upper bounds of what one grid point leaves in the output block.

  A grid point holds a block x of shape [8, 16, 112, 256] (eight batch rows, sixteen image rows, all 112 columns,
  all 256 channels) and the block acc of shape [8, 256] the point before left. It stores, at (p, q), the larger of
  acc (p, q) and the maximum of x (p, r, w, q) over the sixteen rows r and the 112 columns w, each of the two
  nested maxima taken from the word of −∞. A number a bounds that entry from above exactly when it bounds
  acc (p, q), the starting word's value, and every x (p, r, w, q): this is all the later modules use of the body.
-/
import proofs.«140731_j35656818491725_1_alg».proof.Proof.Gen.KernelIdeal.Skeleton
import Idealize.ShloMosaic.PureOps.Ideal.Laws
import Idealize.ShloMosaic.Lib.ValueIdx
import Idealize.ShloMosaic.Lib.Pipeline.Value
import Mathlib.Data.Finset.Fold

noncomputable section

namespace Cert.KernelIdeal.Pool

open Cert.KernelIdeal Cert.KernelIdeal.Gen Idealize.ShloMosaic Idealize.ShloMosaic.ValueIdx

/-- The value every maximum starts from: what the word 0xFF800000 denotes. -/
abbrev start : EReal := Ideal.ofBits .f32 0xFF800000#32

/-- The maximum over the columns: a bounds it at (p, r, q) iff it bounds the start and every column's entry. -/
theorem colMax_le_iff (h : S8x16x112x256.Reduces [2] S8x16x256) (hφ : FKind.Formats .f32)
    (hacc : (0xFF800000#32 : BitVec 32) = FKind.maximumf.neutral .f32 hφ) (x : FVec Ideal S8x16x112x256 .f32)
    (p : Fin 8) (r : Fin 16) (q : Fin 256) (a : EReal) :
    multiReduction .maximumf [2] S8x16x256 x 0xFF800000#32 h hφ hacc (ix3 p r q) ≤ a
      ↔ start ≤ a ∧ ∀ w : Fin 112, x (ix4 p r w q) ≤ a := by
  have e := Ideal.multiReduction_maximumf_single x 0xFF800000#32 h hφ hacc (ix3 p r q)
  rw [e, Finset.fold_max_le]
  refine and_congr Iff.rfl ⟨fun H w => ?_, fun H w _ => ?_⟩
  · have e : h.lift (ix3 p r q) w = ix4 p r w q := by
      funext b; apply Fin.ext
      match b with
      | ⟨0, _⟩ => rfl
      | ⟨1, _⟩ => rfl
      | ⟨2, _⟩ => rfl
      | ⟨3, _⟩ => rfl
    exact Eq.mp (congrArg (fun i => x i ≤ a) e) (H w (Finset.mem_univ _))
  · have e : h.lift (ix3 p r q) w = ix4 p r w q := by
      funext b; apply Fin.ext
      match b with
      | ⟨0, _⟩ => rfl
      | ⟨1, _⟩ => rfl
      | ⟨2, _⟩ => rfl
      | ⟨3, _⟩ => rfl
    exact Eq.mpr (congrArg (fun i => x i ≤ a) e) (H w)

/-- The maximum over the sixteen rows: a bounds it at (p, q) iff it bounds the start and every row's entry. -/
theorem rowMax_le_iff (h : S8x16x256.Reduces [1] S8x256) (hφ : FKind.Formats .f32)
    (hacc : (0xFF800000#32 : BitVec 32) = FKind.maximumf.neutral .f32 hφ) (y : FVec Ideal S8x16x256 .f32)
    (p : Fin 8) (q : Fin 256) (a : EReal) :
    multiReduction .maximumf [1] S8x256 y 0xFF800000#32 h hφ hacc (ix2 p q) ≤ a
      ↔ start ≤ a ∧ ∀ r : Fin 16, y (ix3 p r q) ≤ a := by
  have e := Ideal.multiReduction_maximumf_single y 0xFF800000#32 h hφ hacc (ix2 p q)
  rw [e, Finset.fold_max_le]
  refine and_congr Iff.rfl ⟨fun H r => ?_, fun H r _ => ?_⟩
  · have e : h.lift (ix2 p q) r = ix3 p r q := by
      funext b; apply Fin.ext
      match b with
      | ⟨0, _⟩ => rfl
      | ⟨1, _⟩ => rfl
      | ⟨2, _⟩ => rfl
    exact Eq.mp (congrArg (fun i => y i ≤ a) e) (H r (Finset.mem_univ _))
  · have e : h.lift (ix2 p q) r = ix3 p r q := by
      funext b; apply Fin.ext
      match b with
      | ⟨0, _⟩ => rfl
      | ⟨1, _⟩ => rfl
      | ⟨2, _⟩ => rfl
    exact Eq.mpr (congrArg (fun i => y i ≤ a) e) (H r)

/-- What the first point of a run stores before it accumulates: the start, everywhere. -/
theorem pay1_apply (y : S8x256.Idx) : k0_pay1 (F := Ideal) y = start := rfl

/-- The stored block at (p, q): a bounds it iff it bounds the earlier contents there, the start, and every entry
    of the point's input block in batch row p and channel q. -/
theorem pay2_le_iff (x : Vec Ideal S8x16x112x256 .f32) (acc : Vec Ideal S8x256 .f32) (p : Fin 8) (q : Fin 256)
    (a : EReal) :
    k0_pay2 (F := Ideal) x acc (ix2 p q) ≤ a
      ↔ acc (ix2 p q) ≤ a ∧ start ≤ a ∧ ∀ (r : Fin 16) (w : Fin 112), x (ix4 p r w q) ≤ a := by
  unfold k0_pay2
  rw [shapeCast_self]
  show max (acc (ix2 p q)) (multiReduction (F := Ideal) .maximumf [1] S8x256
      (multiReduction (F := Ideal) .maximumf [2] S8x16x256 x 0xFF800000#32 reduces_S8x16x112x256_S8x16x256 (.inl rfl) rfl)
      0xFF800000#32 reduces_S8x16x256_S8x256 (.inl rfl) rfl (ix2 p q)) ≤ a ↔ _
  refine max_le_iff.trans (and_congr Iff.rfl ((rowMax_le_iff _ _ _ _ p q a).trans ?_))
  exact ⟨fun H => ⟨H.1, fun r w => ((colMax_le_iff _ _ _ x p r q a).mp (H.2 r)).2 w⟩,
    fun H => ⟨H.1, fun r => (colMax_le_iff _ _ _ x p r q a).mpr ⟨H.1, H.2 r⟩⟩⟩

end Cert.KernelIdeal.Pool

end
-- ==== Proof.PoolRun.lean ====
/-
  The kernel's result array, bounded from above.

  The grid is 8 × 7: point t works on batch tile t / 7 and image-row tile t % 7, and the seven points of one batch
  tile form a run. The first point of a run fills the output block with the start value and takes the maximum
  with its input block; each later point takes the maximum of what the point before left with its own input
  block; the last point's block is written back. So a number a bounds the result at (b, q) from above exactly when
  it bounds the start value and every input entry (b, h, w, q): the seven row tiles of sixteen rows are the 112
  image rows, h = 16 · (t % 7) + r.
-/
import proofs.«140731_j35656818491725_1_alg».proof.Proof.Gen.KernelIdeal.Value
import proofs.«140731_j35656818491725_1_alg».proof.Proof.PoolBlock

noncomputable section

namespace Cert.KernelIdeal.Pool

open Cert.KernelIdeal Cert.KernelIdeal.Gen Cert.KernelIdeal.Value Idealize.ShloMosaic Idealize.ShloMosaic.TcCoe
  Idealize.SL.Sem Idealize.ShloMosaic.ValueIdx

variable (m : (ℓ : Loc nD τ sig) → Buf (Elt Ideal) ℓ)

/-- The input block grid point n holds, as a block of the literal shape [8, 16, 112, 256]. -/
abbrev xblk (c : Dev nD) (n : ℕ) (h : n < cfg0.N) : Vec Ideal S8x16x112x256 .f32 := iblk m c 0 ⟨n, h⟩

/-- The input array as the region finds it, at the literal shape [64, 112, 112, 256]. -/
abbrev xarr (c : Dev nD) : Vec Ideal S64x112x112x256 .f32 := m ((c : Thread nD τ).loc main_arg0)

/-- The input window's block index at each grid point: batch tile t / 7, row tile t % 7, all columns and channels. -/
theorem in_index : ∀ t : Fin cfg0.N, win0_0.index t (0 : Fin 4) = t.val / 7 ∧ win0_0.index t (1 : Fin 4) = t.val % 7
    ∧ win0_0.index t (2 : Fin 4) = 0 ∧ win0_0.index t (3 : Fin 4) = 0 :=
  (by decide +kernel : ∀ t : Fin grid0.N, _)

/-- Entry (p, r, w, q) of point n's input block is the array's entry at batch row 8 · (n / 7) + p and image row
    16 · (n % 7) + r, same column and channel. -/
theorem xblk_apply (c : Dev nD) (n : ℕ) (h : n < cfg0.N) (p : Fin 8) (r : Fin 16) (w : Fin 112) (q : Fin 256)
    (i : S64x112x112x256.Idx) (h0 : (i 0).val = 8 * (n / 7) + p.val) (h1 : (i 1).val = 16 * (n % 7) + r.val)
    (h2 : (i 2).val = w.val) (h3 : (i 3).val = q.val) :
    xblk m c n h (ix4 p r w q) = xarr m c i := by
  obtain ⟨e0, e1, e2, e3⟩ := in_index ⟨n, h⟩
  show V m c main_arg0 (((cfg0.win 0).blk ⟨n, h⟩).view.emb (ix4 p r w q)) = V m c main_arg0 i
  refine congrArg (V m c main_arg0) (funext fun b => Fin.ext ?_)
  match b with
  | ⟨0, _⟩ =>
    show win0_0.index ⟨n, h⟩ (0 : Fin 4) * 8 + 1 * p.val = (i 0).val
    rw [e0, h0]; show n / 7 * 8 + 1 * p.val = _; omega
  | ⟨1, _⟩ =>
    show win0_0.index ⟨n, h⟩ (1 : Fin 4) * 16 + 1 * r.val = (i 1).val
    rw [e1, h1]; show n % 7 * 16 + 1 * r.val = _; omega
  | ⟨2, _⟩ =>
    show win0_0.index ⟨n, h⟩ (2 : Fin 4) * 112 + 1 * w.val = (i 2).val
    rw [e2, h2]; omega
  | ⟨3, _⟩ =>
    show win0_0.index ⟨n, h⟩ (3 : Fin 4) * 256 + 1 * q.val = (i 3).val
    rw [e3, h3]; omega

/-- What the output block holds after j + 1 points of the run starting at point s: a bounds its entry (p, q) iff it
    bounds the start value and every entry (p, ·, ·, q) of the input blocks of points s, …, s + j. -/
theorem acc_le_iff (c : Dev nD) (s : ℕ) : ∀ (j : ℕ) (h : s + j < cfg0.N) (p : Fin 8) (q : Fin 256) (a : EReal),
    Pipeline.accAt (reset1 m c) (step1 m c) s j h (ix2 p q) ≤ a
      ↔ start ≤ a ∧ ∀ (k : ℕ) (hk : k ≤ j) (r : Fin 16) (w : Fin 112),
          xblk m c (s + k) (Nat.lt_of_le_of_lt (Nat.add_le_add_left hk s) h) (ix4 p r w q) ≤ a
  | 0, h, p, q, a => by
    rw [Pipeline.accAt_zero]
    unfold reset1
    refine (pay2_le_iff _ _ p q a).trans ⟨fun H => ⟨H.2.1, fun k hk r w => ?_⟩, fun H => ⟨?_, H.1, fun r w => ?_⟩⟩
    · obtain rfl : k = 0 := Nat.le_zero.mp hk
      exact H.2.2 r w
    · rw [pay1_apply]; exact H.1
    · exact H.2 0 (Nat.le_refl 0) r w
  | j + 1, h, p, q, a => by
    rw [Pipeline.accAt_succ]
    show k0_pay2 (F := Ideal) (xblk m c (s + (j + 1)) h) (Pipeline.accAt (reset1 m c) (step1 m c) s j (Nat.lt_of_succ_lt h))
      (ix2 p q) ≤ a ↔ _
    refine (pay2_le_iff _ _ p q a).trans ?_
    rw [acc_le_iff c s j (Nat.lt_of_succ_lt h) p q a]
    refine ⟨fun H => ⟨H.1.1, fun k hk r w => ?_⟩, fun H => ⟨⟨H.1, fun k hk r w => H.2 k (Nat.le_succ_of_le hk) r w⟩, H.1,
      fun r w => H.2 (j + 1) (Nat.le_refl _) r w⟩⟩
    rcases Nat.lt_or_ge k (j + 1) with hlt | hge
    · exact H.1.2 k (Nat.lt_succ_iff.mp hlt) r w
    · obtain rfl : k = j + 1 := Nat.le_antisymm hk hge
      exact H.2.2 r w

/-- The array the kernel's run ends with, at the literal shape [64, 256]. -/
abbrev result (c : Dev nD) : Vec Ideal S64x256 .f32 := G1 m c

/-- THE KERNEL'S RESULT at (b, q): a bounds it iff it bounds the start value and every input entry (b, h, w, q). -/
theorem result_le_iff (c : Dev nD) (b : Fin 64) (q : Fin 256) (a : EReal) :
    result m c (ix2 b q) ≤ a ↔ start ≤ a ∧ ∀ (h : Fin 112) (w : Fin 112), xarr m c (ix4 b h w q) ≤ a := by
  have hb : b.val < 64 := b.isLt
  have hq : q.val < 256 := q.isLt
  have hN : cfg0.N = 56 := N_0
  have hrun : run1Of (ix2 b q) = b.val / 8 := by
    show 1 * (b.val / 8 - 0) + 1 * (q.val / 256 - 0) = b.val / 8
    omega
  have hlt : 7 * run1Of (ix2 b q) + 6 < cfg0.N := by rw [hrun, hN]; omega
  have hloc : loc1Of (ix2 b q) = ix2 (⟨b.val % 8, Nat.mod_lt _ (by decide)⟩ : Fin 8) (⟨q.val % 256, Nat.mod_lt _ (by decide)⟩ : Fin 256) := by
    funext d
    match d with
    | ⟨0, _⟩ => rfl
    | ⟨1, _⟩ => rfl
  unfold result G1
  rw [dif_pos hlt, hloc, acc_le_iff]
  refine and_congr Iff.rfl ⟨fun H h w => ?_, fun H k hk r w => ?_⟩
  · have hh : h.val < 112 := h.isLt
    have := H (h.val / 16) (by omega) ⟨h.val % 16, Nat.mod_lt _ (by decide)⟩ w
    rwa [xblk_apply m c _ _ _ _ w _ (ix4 b h w q) (by show b.val = _; rw [hrun]; show b.val = 8 * ((7 * (b.val / 8) + h.val / 16) / 7) + b.val % 8; omega)
      (by show h.val = 16 * ((7 * run1Of (ix2 b q) + h.val / 16) % 7) + h.val % 16; rw [hrun]; omega) rfl
      (by show q.val = q.val % 256; omega)] at this
  · have hr : r.val < 16 := r.isLt
    rw [xblk_apply m c _ _ _ _ w _ (ix4 b (⟨16 * k + r.val, by omega⟩ : Fin 112) w q)
      (by show b.val = 8 * ((7 * run1Of (ix2 b q) + k) / 7) + b.val % 8; rw [hrun]; omega)
      (by show 16 * k + r.val = 16 * ((7 * run1Of (ix2 b q) + k) % 7) + r.val; rw [hrun]; omega) rfl
      (by show q.val = q.val % 256; omega)]
    exact H _ w

end Cert.KernelIdeal.Pool

end
-- ==== Proof.PoolReference.lean ====
/-
  The reference's result array, bounded from above.

  The reference takes, at (b, q), the maximum of the input over the image rows and columns (the two middle axes),
  starting from the value of the word of −∞: a fold of max over the set of input indices whose first and last
  coordinates are b and q. So a number a bounds it from above exactly when it bounds the start value and every
  input entry (b, h, w, q).
-/
import proofs.«140731_j35656818491725_1_alg».proof.Proof.Gen.ReferenceIdeal
import Idealize.ShloMosaic.PureOps.Ideal.Laws
import Idealize.ShloMosaic.Lib.ValueIdx
import Mathlib.Data.Finset.Fold

noncomputable section

namespace Cert.ReferenceIdeal.Pool

open Cert.ReferenceIdeal Cert.ReferenceIdeal.Gen Idealize.ShloMosaic Idealize.ShloMosaic.ValueIdx

/-- An input index drops to (b, q) — its image-row and column coordinates removed — iff its batch row is b and
    its channel is q. -/
theorem drop_eq_iff (h : S64x112x112x256.ReducesTo [1, 2] S64x256) (i : S64x112x112x256.Idx) (b : Fin 64) (q : Fin 256) :
    h.drop i = ix2 b q ↔ (i 0).val = b.val ∧ (i 3).val = q.val := by
  have e0 : (h.drop i 0 : Nat) = i 0 := h.drop_apply_val_of_eq i 0 0
  have e1 : (h.drop i 1 : Nat) = i 3 := h.drop_apply_val_of_eq i 1 3
  constructor
  · intro H
    have H0 : (h.drop i 0 : Nat) = b.val := congrArg (fun j : S64x256.Idx => (j 0).val) H
    have H1 : (h.drop i 1 : Nat) = q.val := congrArg (fun j : S64x256.Idx => (j 1).val) H
    exact ⟨e0 ▸ H0, e1 ▸ H1⟩
  · rintro ⟨H0, H1⟩
    funext d; apply Fin.ext
    match d with
    | ⟨0, _⟩ => exact e0.trans H0
    | ⟨1, _⟩ => exact e1.trans H1

/-- THE REFERENCE'S RESULT at (b, q): a bounds it iff it bounds the start value and every input entry (b, h, w, q). -/
theorem result_le_iff (h : S64x112x112x256.ReducesTo [1, 2] S64x256) (hu : 0 < S_.numel)
    (x : Vec Ideal S64x112x112x256 .f32) (b : Fin 64) (q : Fin 256) (a : EReal) :
    Host.reduce (FloatOps.maximumf (F := Ideal) (φ := .f32)) x (constant (F := Ideal) S_ .f32 0xFF800000#32) h hu (ix2 b q) ≤ a
      ↔ Ideal.ofBits .f32 0xFF800000#32 ≤ a ∧ ∀ (r : Fin 112) (w : Fin 112), x (ix4 b r w q) ≤ a := by
  have e := Host.reduce_eq_fold (FloatOps.maximumf (F := Ideal) (φ := .f32)) x (constant (F := Ideal) S_ .f32 0xFF800000#32) h hu (ix2 b q)
  rw [e]
  refine (Finset.fold_max_le (s := Finset.univ.filter fun i => h.drop i = ix2 b q) (f := x)
    (b := Ideal.ofBits .f32 0xFF800000#32) (c := a)).trans (and_congr Iff.rfl ⟨fun H r w => ?_, fun H i hi => ?_⟩)
  · refine H (ix4 b r w q) (Finset.mem_filter.mpr ⟨Finset.mem_univ _, ?_⟩)
    exact (drop_eq_iff h _ b q).mpr ⟨rfl, rfl⟩
  · obtain ⟨h0, h3⟩ := (drop_eq_iff h i b q).mp (Finset.mem_filter.mp hi).2
    have : i = ix4 b (i 1) (i 2) q := by
      funext d; apply Fin.ext
      match d with
      | ⟨0, _⟩ => exact h0
      | ⟨1, _⟩ => rfl
      | ⟨2, _⟩ => rfl
      | ⟨3, _⟩ => exact h3
    rw [this]
    exact H (i 1) (i 2)

end Cert.ReferenceIdeal.Pool

end
-- ==== Proof.PoolEq.lean ====
/-
  The two results are one array.

  At every (b, q) the kernel's result and the reference's have the same upper bounds — those numbers that bound
  the start value and every input entry (b, h, w, q) — and two extended reals with the same upper bounds are
  equal. No finiteness of the input is used: only that max is the least upper bound of two.
-/
import proofs.«140731_j35656818491725_1_alg».proof.Proof.PoolRun
import proofs.«140731_j35656818491725_1_alg».proof.Proof.PoolReference

noncomputable section

namespace Cert.Pool

open Idealize.ShloMosaic Idealize.ShloMosaic.TcCoe Idealize.SL.Sem Idealize.ShloMosaic.ValueIdx

/-- The reference's maximum over the image rows and columns of the kernel's input array is the array the kernel's
    run ends with. -/
theorem reference_eq_kernel (m : (ℓ : Loc Cert.KernelIdeal.nD Cert.KernelIdeal.τ Cert.KernelIdeal.sig) → Buf (Elt Ideal) ℓ)
    (c : Dev Cert.KernelIdeal.nD) :
    (Host.reduce (FloatOps.maximumf (F := Ideal) (φ := .f32)) (Cert.KernelIdeal.Pool.xarr m c)
        (constant (F := Ideal) Cert.ReferenceIdeal.S_ .f32 0xFF800000#32)
        Cert.ReferenceIdeal.Gen.reducesTo_S64x112x112x256_S64x256_d1_2 Cert.ReferenceIdeal.Gen.h_S_
      : Vec Ideal Cert.KernelIdeal.S64x256 .f32) = Cert.KernelIdeal.Pool.result m c := by
  funext i
  obtain ⟨b, q, rfl⟩ : ∃ (b : Fin 64) (q : Fin 256), i = ix2 b q := ⟨i 0, i 1, eq_ix2 i⟩
  refine eq_of_forall_ge_iff fun a => ?_
  exact (Cert.ReferenceIdeal.Pool.result_le_iff _ _ (Cert.KernelIdeal.Pool.xarr m c) b q a).trans
    (Cert.KernelIdeal.Pool.result_le_iff m c b q a).symm

end Cert.Pool

end
-- ==== Proof.lean ====
/-
  Global spatial max pooling: a [64, 112, 112, 256] feature map reduced to [64, 256] by the maximum over the image
  rows and columns.

  The kernel walks an 8 × 7 grid: for each tile of eight batch rows it visits the seven tiles of sixteen image rows
  in turn, keeping in the output block a running maximum that starts from −∞ and takes in, at each visit, the
  maximum of the visited block over its columns and then over its sixteen rows. The reference takes the maximum
  over both image axes at once, from the same −∞. On the extended reals max is the least upper bound, so both
  results at (b, q) have exactly the upper bounds of the set of input entries (b, h, w, q) together with the start
  value, and are therefore equal (Proof/PoolEq.lean); the input's finiteness is not needed. The kernel's run is
  the generated value leg's, the reference's its generated run; the idealization ledger is empty.
-/
import proofs.«140731_j35656818491725_1_alg».proof.Defs
import proofs.«140731_j35656818491725_1_alg».proof.Proof.Gen.Kernel.Frame
import proofs.«140731_j35656818491725_1_alg».proof.Proof.Gen.KernelIdeal.Value
import proofs.«140731_j35656818491725_1_alg».proof.Proof.Gen.Pre_finite_inputs
import proofs.«140731_j35656818491725_1_alg».proof.Proof.Gen.ReferenceIdeal.Run
import proofs.«140731_j35656818491725_1_alg».proof.Proof.PoolEq
import Idealize.ShloMosaic.Adequacy
import Idealize.ShloMosaic.Init

noncomputable section

namespace Cert.Proof

open Idealize.ShloMosaic Idealize.SL.Sem

/-- The idealized kernel terminates without a fault and leaves its argument as launched: its value run, weakened. -/
theorem frame_KernelIdeal : frame_KernelIdeal := fun m ρ _ =>
  (θ_run Cert.KernelIdeal.defs _ _).mono (fun _ h c => (h c).2) (Cert.KernelIdeal.Value.run (F := Ideal) m ρ)

/-- The same for the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the input, the kernel ends with the running maximum's array and the reference with
    the maximum over both image axes of the same input: one array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Pool.reference_eq_kernel m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
